-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg12 : FVec F S128 .f32) (main_arg13 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000x3 .f32) (main_arg2 : IVec S2x800000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S4000x128 : Shape := ⟨2, ![4000, 128]⟩
abbrev S4000x1 : Shape := ⟨2, ![4000, 1]⟩
abbrev S4000x3 : Shape := ⟨2, ![4000, 3]⟩
abbrev S50000x1 : Shape := ⟨2, ![50000, 1]⟩
abbrev S2000x128 : Shape := ⟨2, ![2000, 128]⟩

abbrev nBuf : Space → Nat
  | .hbm => 92
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S800000x3, .f32⟩
  | .hbm, ⟨55, _⟩ => ⟨S800000x3, .f32⟩
  | .hbm, ⟨56, _⟩ => ⟨S_, .f32⟩
  | .hbm, ⟨57, _⟩ => ⟨S800000, .f32⟩
  | .hbm, ⟨58, _⟩ => ⟨S800000x1, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S800000x128, .f32⟩
  | .hbm, ⟨66, _⟩ => ⟨S800000x3, .f32⟩
  | .hbm, ⟨67, _⟩ => ⟨S_, .f32⟩
  | .hbm, ⟨68, _⟩ => ⟨S800000x1, .f32⟩
  | .hbm, ⟨69, _⟩ => ⟨S_, .f32⟩
  | .hbm, ⟨70, _⟩ => ⟨S50000x1, .f32⟩
  | .hbm, ⟨71, _⟩ => ⟨S800000x1, .i32⟩
  | .hbm, ⟨72, _⟩ => ⟨S50000x1, .f32⟩
  | .hbm, ⟨73, _⟩ => ⟨S_, .f32⟩
  | .hbm, ⟨74, _⟩ => ⟨S50000x3, .f32⟩
  | .hbm, ⟨75, _⟩ => ⟨S800000x1, .i32⟩
  | .hbm, ⟨76, _⟩ => ⟨S50000x3, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x3, .f32⟩
  | .hbm, ⟨81, _⟩ => ⟨S50000x3, .f32⟩
  | .hbm, ⟨82, _⟩ => ⟨S50000x3, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S128x128, .f32⟩
  | .hbm, ⟨88, _⟩ => ⟨S128x128, .f32⟩
  | .hbm, ⟨89, _⟩ => ⟨S1x128, .f32⟩
  | .hbm, ⟨90, _⟩ => ⟨S1x128, .f32⟩
  | .hbm, ⟨91, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x3, .f32⟩
  | .local _ .vmem, ⟨7, _⟩ => ⟨S4000x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S4000x128, .f32⟩
  | .local _ .vmem, ⟨18, _⟩ => ⟨S4000x128, .f32⟩
  | .local _ .vmem, ⟨19, _⟩ => ⟨S4000x3, .f32⟩
  | .local _ .vmem, ⟨20, _⟩ => ⟨S4000x3, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_cst_7 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  broadcasts_S4000x1_S4000x3 : S4000x1.Broadcasts S4000x3
  bcast_S_S800000x1 : S_.BroadcastsInDim S800000x1 (![] : Fin 0 → Fin S800000x1.rank)
  bcast_S_S50000x1 : S_.BroadcastsInDim S50000x1 (![] : Fin 0 → Fin S50000x1.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x1_S800000x1_S800000x1_1_0_0_1_wf : ScatterDims.WF S50000x1 S800000x1 S800000x1 [1] [0] [0] 1
  scatter_S50000x3_S800000x1_S800000x3_1_0_0_1_wf : ScatterDims.WF S50000x3 S800000x1 S800000x3 [1] [0] [0] 1
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .f32 = 32 ∨ (Rect.block (s := S800000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S800000x3.size a
  hwx0_3 : ∀ i : grid0.Coords, EltTy.bits .f32 = 32 ∨ (Rect.block (s := S800000x3) S4000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .f32 = 32 ∨ (Rect.block (s := S128x1) S128x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S800000x128.size a
  hwx0_13 : ∀ i : grid0.Coords, EltTy.bits .f32 = 32 ∨ (Rect.block (s := S800000x128) S4000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x3.size a ≤ S800000x3.size a
  hwx0_14 : ∀ i : grid0.Coords, EltTy.bits .f32 = 32 ∨ (Rect.block (s := S800000x3) S4000x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v42_0) S4000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v42_1) S4000x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x3, .f32⟩
  | 36 => ⟨S800000x3, .f32⟩
  | 37 => ⟨S800000x3, .f32⟩
  | 38 => ⟨S_, .f32⟩
  | 39 => ⟨S800000, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x257, .f32⟩
  | 60 => ⟨S800000x128, .f32⟩
  | 61 => ⟨S1x128, .f32⟩
  | 62 => ⟨S800000x128, .f32⟩
  | 63 => ⟨S800000x128, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S800000x128, .f32⟩
  | 73 => ⟨S800000x128, .f32⟩
  | 74 => ⟨S1x128, .f32⟩
  | 75 => ⟨S800000x128, .f32⟩
  | 76 => ⟨S800000x128, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S800000x128, .f32⟩
  | 86 => ⟨S800000x128, .f32⟩
  | 87 => ⟨S1x128, .f32⟩
  | 88 => ⟨S800000x128, .f32⟩
  | 89 => ⟨S800000x128, .f32⟩
  | 90 => ⟨S800000x128, .f32⟩
  | 91 => ⟨S800000x128, .f32⟩
  | 92 => ⟨S_, .f32⟩
  | 93 => ⟨S800000x128, .f32⟩
  | 94 => ⟨S800000x128, .f32⟩
  | 95 => ⟨S_, .f32⟩
  | 96 => ⟨S800000x128, .f32⟩
  | 97 => ⟨S800000x128, .f32⟩
  | 98 => ⟨S800000x128, .f32⟩
  | 99 => ⟨S800000x1, .f32⟩
  | 100 => ⟨S800000x3, .f32⟩
  | 101 => ⟨S800000x3, .f32⟩
  | 102 => ⟨S_, .f32⟩
  | 103 => ⟨S_, .f32⟩
  | 104 => ⟨S_, .f32⟩
  | 105 => ⟨S800000x3, .f32⟩
  | 106 => ⟨S800000x3, .f32⟩
  | 107 => ⟨S_, .f32⟩
  | 108 => ⟨S800000x3, .f32⟩
  | 109 => ⟨S800000x3, .f32⟩
  | 110 => ⟨S_, .f32⟩
  | 111 => ⟨S800000x1, .f32⟩
  | 112 => ⟨S_, .f32⟩
  | 113 => ⟨S50000x1, .f32⟩
  | 114 => ⟨S800000x1, .i32⟩
  | 115 => ⟨S50000x1, .f32⟩
  | 116 => ⟨S_, .f32⟩
  | 117 => ⟨S50000x3, .f32⟩
  | 118 => ⟨S800000x1, .i32⟩
  | 119 => ⟨S50000x3, .f32⟩
  | 120 => ⟨S_, .f32⟩
  | 121 => ⟨S50000x1, .f32⟩
  | 122 => ⟨S50000x1, .f32⟩
  | 123 => ⟨S50000x3, .f32⟩
  | 124 => ⟨S50000x3, .f32⟩
  | 125 => ⟨S50000x3, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000x256, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_7 : Ref sig .tc := ⟨.hbm, 102, rfl⟩
abbrev main_cst_8 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v55 : Ref sig .tc := ⟨.hbm, 109, rfl⟩
abbrev main_cst_9 : Ref sig .tc := ⟨.hbm, 110, rfl⟩
abbrev main_v56 : Ref sig .tc := ⟨.hbm, 111, rfl⟩
abbrev main_cst_10 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_cst_11 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_12 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_13 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x3_0_1 : S800000x1.BroadcastsInDim S800000x3 (![0, 1] : Fin 2 → Fin S800000x3.rank)
  bcast_S_S800000x3 : S_.BroadcastsInDim S800000x3 (![] : Fin 0 → Fin S800000x3.rank)
  bcast_S_S800000x1 : S_.BroadcastsInDim S800000x1 (![] : Fin 0 → Fin S800000x1.rank)
  bcast_S_S50000x1 : S_.BroadcastsInDim S50000x1 (![] : Fin 0 → Fin S50000x1.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x1_S800000x1_S800000x1_1_0_0_1_wf : ScatterDims.WF S50000x1 S800000x1 S800000x1 [1] [0] [0] 1
  scatter_S50000x3_S800000x1_S800000x3_1_0_0_1_wf : ScatterDims.WF S50000x3 S800000x1 S800000x3 [1] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostIn.lean ====
/-
  What the edge kernel's windows hold when the region is entered, as far as the kernel's own program says it: the three
  row blocks of the first edge weight matrix are rows 0–127, 128–255 and row 256 of the argument; each bias row is its
  argument vector laid out as one row; the other weight matrices and every argument are as launched.
-/
import proofs.«133854_j893353197946_1_alg».proof.Proof.Gen.KernelIdeal.Frame
import Idealize.ShloMosaic.Lib.StableHlo.Run
import Idealize.ShloMosaic.Lib.ValueIdx
import Idealize.ShloMosaic.Lib.ValueLayout

set_option maxRecDepth 16384

noncomputable section

namespace Cert.KernelIdeal.HostIn

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The arguments, as the first region finds them

No host operation before the first region writes an argument's buffer, so each holds what it was launched with. -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp

theorem W1_arg1 (c : Dev nD) : W1 m ρ c (Proc.devRef .tc main_arg1) = m ((c : Thread nD τ).loc main_arg1) := by
  show StableHlo.after hostOps0 (W0 m ρ c) (Proc.devRef .tc main_arg1) = _
  after_results_simp

theorem W1_arg5 (c : Dev nD) : W1 m ρ c (Proc.devRef .tc main_arg5) = m ((c : Thread nD τ).loc main_arg5) := by
  show StableHlo.after hostOps0 (W0 m ρ c) (Proc.devRef .tc main_arg5) = _
  after_results_simp

theorem W1_arg7 (c : Dev nD) : W1 m ρ c (Proc.devRef .tc main_arg7) = m ((c : Thread nD τ).loc main_arg7) := by
  show StableHlo.after hostOps0 (W0 m ρ c) (Proc.devRef .tc main_arg7) = _
  after_results_simp

theorem W1_arg8 (c : Dev nD) : W1 m ρ c (Proc.devRef .tc main_arg8) = m ((c : Thread nD τ).loc main_arg8) := by
  show StableHlo.after hostOps0 (W0 m ρ c) (Proc.devRef .tc main_arg8) = _
  after_results_simp

theorem W1_arg9 (c : Dev nD) : W1 m ρ c (Proc.devRef .tc main_arg9) = m ((c : Thread nD τ).loc main_arg9) := by
  show StableHlo.after hostOps0 (W0 m ρ c) (Proc.devRef .tc main_arg9) = _
  after_results_simp

theorem W1_arg10 (c : Dev nD) : W1 m ρ c (Proc.devRef .tc main_arg10) = m ((c : Thread nD τ).loc main_arg10) := by
  show StableHlo.after hostOps0 (W0 m ρ c) (Proc.devRef .tc main_arg10) = _
  after_results_simp

theorem W1_arg11 (c : Dev nD) : W1 m ρ c (Proc.devRef .tc main_arg11) = m ((c : Thread nD τ).loc main_arg11) := by
  show StableHlo.after hostOps0 (W0 m ρ c) (Proc.devRef .tc main_arg11) = _
  after_results_simp

theorem W1_arg13 (c : Dev nD) : W1 m ρ c (Proc.devRef .tc main_arg13) = m ((c : Thread nD τ).loc main_arg13) := by
  show StableHlo.after hostOps0 (W0 m ρ c) (Proc.devRef .tc main_arg13) = _
  after_results_simp

/-- The same at the references the first region's windows name. -/
theorem V1_arg5 (c : Dev nD) : V1 m ρ c main_arg5 = m ((c : Thread nD τ).loc main_arg5) := W1_arg5 m ρ c
theorem V1_arg11 (c : Dev nD) : V1 m ρ c main_arg11 = m ((c : Thread nD τ).loc main_arg11) := W1_arg11 m ρ c
theorem V1_arg13 (c : Dev nD) : V1 m ρ c main_arg13 = m ((c : Thread nD τ).loc main_arg13) := W1_arg13 m ρ c

/-! ## The first weight matrix's three row blocks -/

theorem V1_v36_apply (c : Dev nD) (l k : Fin 128) :
    V1 m ρ c main_v36 (ix2 l k) = m ((c : Thread nD τ).loc main_arg3) (ix2 (⟨l.val, by omega⟩ : Fin 257) k) := by
  show StableHlo.after hostOps0 (W0 m ρ c) (Proc.devRef .tc main_v36) (ix2 l k) = _
  after_results_simp
  exact slice2_axis0_apply 0 _ _ l k ⟨l.val, by omega⟩ (Nat.zero_add _).symm

theorem V1_v37_apply (c : Dev nD) (l k : Fin 128) :
    V1 m ρ c main_v37 (ix2 l k) = m ((c : Thread nD τ).loc main_arg3) (ix2 (⟨128 + l.val, by omega⟩ : Fin 257) k) := by
  show StableHlo.after hostOps0 (W0 m ρ c) (Proc.devRef .tc main_v37) (ix2 l k) = _
  after_results_simp
  exact slice2_axis0_apply 128 _ _ l k ⟨128 + l.val, by omega⟩ rfl

theorem V1_v38_apply (c : Dev nD) (k : Fin 128) :
    V1 m ρ c main_v38 (ix2 (0 : Fin 1) k) = m ((c : Thread nD τ).loc main_arg3) (ix2 (⟨256, by omega⟩ : Fin 257) k) := by
  show StableHlo.after hostOps0 (W0 m ρ c) (Proc.devRef .tc main_v38) (ix2 (0 : Fin 1) k) = _
  after_results_simp
  exact slice2_axis0_apply 256 _ _ (0 : Fin 1) k ⟨256, by omega⟩ rfl

/-! ## The bias rows -/

theorem V1_v39_apply (c : Dev nD) (k : Fin 128) :
    V1 m ρ c main_v39 (ix2 (0 : Fin 1) k) = m ((c : Thread nD τ).loc main_arg4) (ix1 k) := by
  show StableHlo.after hostOps0 (W0 m ρ c) (Proc.devRef .tc main_v39) (ix2 (0 : Fin 1) k) = _
  after_results_simp
  exact shapeCast_a_1a_apply _ _ (0 : Fin 1) k

theorem V1_v40_apply (c : Dev nD) (k : Fin 128) :
    V1 m ρ c main_v40 (ix2 (0 : Fin 1) k) = m ((c : Thread nD τ).loc main_arg6) (ix1 k) := by
  show StableHlo.after hostOps0 (W0 m ρ c) (Proc.devRef .tc main_v40) (ix2 (0 : Fin 1) k) = _
  after_results_simp
  exact shapeCast_a_1a_apply _ _ (0 : Fin 1) k

theorem V1_v41_apply (c : Dev nD) (k : Fin 128) :
    V1 m ρ c main_v41 (ix2 (0 : Fin 1) k) = m ((c : Thread nD τ).loc main_arg12) (ix1 k) := by
  show StableHlo.after hostOps0 (W0 m ρ c) (Proc.devRef .tc main_v41) (ix2 (0 : Fin 1) k) = _
  after_results_simp
  exact shapeCast_a_1a_apply _ _ (0 : Fin 1) k

end Cert.KernelIdeal.HostIn

end
-- ==== Proof.HostRef.lean ====
/-
  The two programs prepare the edge inputs by the same host operations on the same arguments: the rows of the feature
  and coordinate arrays gathered at an edge's two endpoints (a negative index first wrapped by the number of nodes), the
  difference of the two coordinate rows, and its squared length. So each of these arrays, as the kernel's first region
  finds it, IS the reference's stage of the same arguments; likewise the row-index vector both programs scatter by.
-/
import proofs.«133854_j893353197946_1_alg».proof.Proof.Gen.KernelIdeal.Frame
import proofs.«133854_j893353197946_1_alg».proof.Proof.Gen.ReferenceIdeal.Read
import Idealize.ShloMosaic.Lib.StableHlo.Run

set_option maxRecDepth 16384

noncomputable section

namespace Cert.KernelIdeal.HostRef

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The feature rows gathered at each edge's first endpoint. -/
theorem V1_v10 (c : Dev nD) :
    V1 m ρ c main_v10 = Cert.ReferenceIdeal.Read.val_main_v28 (F := Ideal) (m ((c : Thread nD τ).loc main_arg0)) (m ((c : Thread nD τ).loc main_arg2)) := by
  show StableHlo.after hostOps0 (W0 m ρ c) (Proc.devRef .tc main_v10) = _
  after_results_simp
  rfl

/-- The feature rows gathered at each edge's second endpoint. -/
theorem V1_v17 (c : Dev nD) :
    V1 m ρ c main_v17 = Cert.ReferenceIdeal.Read.val_main_v35 (F := Ideal) (m ((c : Thread nD τ).loc main_arg0)) (m ((c : Thread nD τ).loc main_arg2)) := by
  show StableHlo.after hostOps0 (W0 m ρ c) (Proc.devRef .tc main_v17) = _
  after_results_simp
  rfl

/-- The coordinate differences. -/
theorem V1_v32 (c : Dev nD) :
    V1 m ρ c main_v32 = Cert.ReferenceIdeal.Read.val_main_v18 (F := Ideal) (m ((c : Thread nD τ).loc main_arg1)) (m ((c : Thread nD τ).loc main_arg2)) := by
  show StableHlo.after hostOps0 (W0 m ρ c) (Proc.devRef .tc main_v32) = _
  after_results_simp
  rfl

/-- The squared distances, as a column. -/
theorem V1_v35 (c : Dev nD) :
    V1 m ρ c main_v35 = Cert.ReferenceIdeal.Read.val_main_v21 (F := Ideal) (m ((c : Thread nD τ).loc main_arg1)) (m ((c : Thread nD τ).loc main_arg2)) := by
  show StableHlo.after hostOps0 (W0 m ρ c) (Proc.devRef .tc main_v35) = _
  after_results_simp
  rfl

/-- The first-endpoint indices, as a vector. -/
theorem W1_v1 (c : Dev nD) :
    W1 m ρ c (Proc.devRef .tc main_v1) = Cert.ReferenceIdeal.Read.val_main_v1 (F := Ideal) (m ((c : Thread nD τ).loc main_arg2)) := by
  show StableHlo.after hostOps0 (W0 m ρ c) (Proc.devRef .tc main_v1) = _
  after_results_simp
  rfl

end Cert.KernelIdeal.HostRef

end
-- ==== Proof.Spec.lean ====
/-
  The layer's mathematics, one edge and one node at a time, on the extended reals.

  For an edge with endpoint feature rows `hr`, `hc` (128 entries each) and squared distance `rad`, the first linear map
  acts on the joined row (hr, hc, rad) of length 257; written over its three row blocks `wa`, `wb` (128 rows each) and
  `wc` (the last row) it is  hr·wa + hc·wb + rad·wc.  `silu x = x · σ(x)` with σ the logistic function.  The message is a
  second linear map and silu; the coordinate weight is a third and a fourth linear map with a silu between; the
  translation is the coordinate difference times that weight, clamped to [-2, 2].  For a node, the update joins the
  node's row with the sum of its incoming messages, again as two row blocks, and adds the result to the node's row.
-/
import Idealize.ShloMosaic.PureOps.Ideal

noncomputable section

namespace Cert.Spec

open Idealize.ShloMosaic

/-- `x · σ(x)`, σ the logistic function `1 / (1 + e⁻ˣ)` with its limits at the infinities. -/
def silu (x : EReal) : EReal := x * Ideal.logistic x

/-- Entry `k` of the edge network's hidden layer: the joined row (hr, hc, rad) against the three row blocks of the
    first weight matrix, plus the bias, through silu. -/
def hidden (hr hc : Fin 128 → EReal) (rad : EReal) (wa wb : Fin 128 → Fin 128 → EReal) (wc b1 : Fin 128 → EReal)
    (k : Fin 128) : EReal :=
  silu ((((∑ l : Fin 128, hr l * wa l k) + (∑ l : Fin 128, hc l * wb l k)) + rad * wc k) + b1 k)

/-- Entry `j` of a dense layer followed by silu: `silu (Σₖ v k · w k j + b j)`. -/
def dense (v : Fin 128 → EReal) (w : Fin 128 → Fin 128 → EReal) (b : Fin 128 → EReal) (j : Fin 128) : EReal :=
  silu ((∑ k : Fin 128, v k * w k j) + b j)

/-- The scalar weight of an edge's coordinate update: a dense silu layer of the message against a column. -/
def coordWeight (ms : Fin 128 → EReal) (w1 : Fin 128 → Fin 128 → EReal) (b1 col : Fin 128 → EReal) : EReal :=
  ∑ k : Fin 128, dense ms w1 b1 k * col k

/-- Clamping to [-2, 2]: the lower bound first, then the upper. -/
def clamp2 (x : EReal) : EReal :=
  min (Ideal.ofBits .f32 0x40000000#32) (max (Ideal.ofBits .f32 0xC0000000#32) x)

/-- Entry `j` of a node's new feature row: its old row plus a two-layer network of (row, summed messages), the first
    layer over the two row blocks `wa`, `wb` of its weight matrix. -/
def nodeOut (h ag : Fin 128 → EReal) (wa wb : Fin 128 → Fin 128 → EReal) (b1 : Fin 128 → EReal)
    (w2 : Fin 128 → Fin 128 → EReal) (b2 : Fin 128 → EReal) (j : Fin 128) : EReal :=
  h j + ((∑ k : Fin 128, silu ((((∑ l : Fin 128, h l * wa l k) + (∑ l : Fin 128, ag l * wb l k)) + b1 k)) * w2 k j) + b2 j)

end Cert.Spec

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.EdgeBody.lean ====
/-
  The edge kernel's two stores read at an entry: the message block at (p, q) is the edge network of row p of the two
  feature blocks and of the squared distance at p; the translation block at (p, d) is the coordinate difference at
  (p, d) times the coordinate weight of row p's message, clamped.

  On the extended reals a product of a [4000,128] block with a [128,n] matrix accumulated into zero is, at (p, q), the
  sum over k of the block at (p, k) times the matrix at (k, q); a row or a column broadcast over the block reads its one
  row or column; and x · σ(x) entry by entry is silu. The first linear map over the joined row (hr, hc, rad) appears as
  the sum of its three row blocks' products, which is how the specification writes it.
-/
import proofs.«133854_j893353197946_1_alg».proof.Proof.Gen.KernelIdeal.Frame
import proofs.«133854_j893353197946_1_alg».proof.Proof.Spec
import proofs.«133854_j893353197946_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Idealize.ShloMosaic Idealize.ShloMosaic.ValueIdx Cert.KernelIdeal Cert.KernelIdeal.Gen

/-- Row `p` of the message block, as a function of the column: the edge network of row `p` of the inputs. -/
def msgRow (x0 x1 : Vec Ideal S4000x128 .f32) (x2 : Vec Ideal S4000x1 .f32) (x4 x5 : Vec Ideal S128x128 .f32)
    (x6 x7 : Vec Ideal S1x128 .f32) (x8 : Vec Ideal S128x128 .f32) (x9 : Vec Ideal S1x128 .f32) (p : Fin 4000) : Fin 128 → EReal :=
  Spec.dense (Spec.hidden (fun l => x0 (ix2 p l)) (fun l => x1 (ix2 p l)) (x2 (ix2 p (0 : Fin 1)))
      (fun l k => x4 (ix2 l k)) (fun l k => x5 (ix2 l k)) (fun k => x6 (ix2 (0 : Fin 1) k)) (fun k => x7 (ix2 (0 : Fin 1) k)))
    (fun k j => x8 (ix2 k j)) (fun j => x9 (ix2 (0 : Fin 1) j))

/-! ## The two contractions at an entry

  Both contract the left operand's second axis with the right operand's first. For each, the operands' indices at an
  output entry and a contraction index, one axis at a time; then the product read at (p, q) as the sum over k of
  (p, k) against (k, q). -/

theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] block against a [128,128] matrix, accumulated into zero, at (p, q): row p against column q. -/
theorem matmul_sq_apply {φ₁ φ₂ : FTy} (a : FVec Ideal S4000x128 φ₁) (b : FVec Ideal S128x128 φ₂) (p : Fin 4000) (q : Fin 128) :
    matmul dot_S4000x128_S128x128_S4000x128_1_0_0_1_n_n none a b (constant S4000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun ax => Fin.ext (by
    match ax with
    | ⟨0, _⟩ => exact lhs_mm_0 _ _
    | ⟨1, _⟩ => exact (lhs_mm_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun ax => Fin.ext (by
    match ax with
    | ⟨0, _⟩ => exact (rhs_mm_0 _ _).trans hk
    | ⟨1, _⟩ => exact rhs_mm_1 _ _)
  rw [el, er]

theorem lhs_mv_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_mv_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_mv_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_mv_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- A [4000,128] block against a [128,1] column, accumulated into zero, at (p, 0): row p against the column. -/
theorem matmul_col_apply {φ₁ φ₂ : FTy} (a : FVec Ideal S4000x128 φ₁) (b : FVec Ideal S128x1 φ₂) (p : Fin 4000) :
    matmul dot_S4000x128_S128x1_S4000x1_1_0_0_1_n_n none a b (constant S4000x1 .f32 0x00000000#32) (ix2 p (0 : Fin 1))
      = ∑ k : Fin 128, a (ix2 p k) * b (ix2 k (0 : Fin 1)) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p (0 : Fin 1)) ((ValueIdx.contrEquiv1 dot_S4000x128_S128x1_S4000x1_1_0_0_1_n_n 128 rfl rfl).symm k) = ix2 p k := funext fun ax => Fin.ext (by
    match ax with
    | ⟨0, _⟩ => exact lhs_mv_0 _ _
    | ⟨1, _⟩ => exact (lhs_mv_1 _ _).trans hk)
  have er : dot_S4000x128_S128x1_S4000x1_1_0_0_1_n_n.rhsIdx (ix2 p (0 : Fin 1)) ((ValueIdx.contrEquiv1 dot_S4000x128_S128x1_S4000x1_1_0_0_1_n_n 128 rfl rfl).symm k) = ix2 k (0 : Fin 1) := funext fun ax => Fin.ext (by
    match ax with
    | ⟨0, _⟩ => exact (rhs_mv_0 _ _).trans hk
    | ⟨1, _⟩ => exact rhs_mv_1 _ _)
  rw [el, er]

/-! ## The kernel's values at an entry

  Every rounding to the narrower format is the identity on the extended reals, so each value is its formula: the hidden
  layer's product, the bias row, the message `silu (product + bias)`, and the clamped translation. -/

/-- The logistic function of a block, entry by entry. -/
theorem logistic_apply {s : Shape} {φ : FTy} (v : FVec Ideal s φ) (i : s.Idx) : logistic v i = Ideal.logistic (v i) := rfl

/-- The bias row broadcast down the block reads the row's entry of the column. -/
theorem pay4_apply (v35 : Vec Ideal S1x128 .f32) (p : Fin 4000) (q : Fin 128) :
    k0_pay4 (F := Ideal) v35 (ix2 p q) = v35 (ix2 (0 : Fin 1) q) := by
  unfold k0_pay4
  simp only [shapeCast_self]
  exact broadcastTo_1b_ab_apply _ _ p q

/-- The second linear map's product at (p, q): the hidden layer of row p against column q of the second weight matrix. -/
theorem pay3_apply (v0 v3 : Vec Ideal S4000x128 .f32) (v6 v9 : Vec Ideal S128x128 .f32) (v15 : Vec Ideal S4000x1 .f32)
    (v19 v25 : Vec Ideal S1x128 .f32) (v32 : Vec Ideal S128x128 .f32) (p : Fin 4000) (q : Fin 128) :
    k0_pay3 (F := Ideal) v0 v3 v6 v9 v15 v19 v25 v32 (ix2 p q)
      = ∑ k : Fin 128, Spec.hidden (fun l => v0 (ix2 p l)) (fun l => v3 (ix2 p l)) (v15 (ix2 p (0 : Fin 1)))
          (fun l k => v6 (ix2 l k)) (fun l k => v9 (ix2 l k)) (fun k => v19 (ix2 (0 : Fin 1) k)) (fun k => v25 (ix2 (0 : Fin 1) k)) k
          * v32 (ix2 k q) := by
  unfold k0_pay3
  refine (matmul_sq_apply _ _ p q).trans ?_
  refine Finset.sum_congr rfl fun k _ => ?_
  simp only [truncf_apply, mulf_apply, addf_apply, logistic_apply, shapeCast_self, matmul_sq_apply,
    broadcastTo_1b_ab_apply, Cert.LibKeepdims.broadcastTo_a1_ab_apply]
  rfl

/-- The message store's value at an entry: silu of the sum of its two blocks there. -/
theorem pay1_apply (v34 v37 : FVec Ideal S4000x128 .f32) (i : S4000x128.Idx) :
    k0_pay1 (F := Ideal) v34 v37 i = Spec.silu (v34 i + v37 i) := by
  unfold k0_pay1 Spec.silu
  rfl

/-- The translation store's value at (p, d): the coordinate difference there times the coordinate weight of row p of
    the message block, clamped. -/
theorem pay2_apply (v34 v37 : FVec Ideal S4000x128 .f32) (v42 : Vec Ideal S128x128 .f32) (v45 : Vec Ideal S1x128 .f32)
    (v52 : Vec Ideal S128x1 .f32) (v55 : Vec Ideal S4000x3 .f32) (p : Fin 4000) (d : Fin 3) :
    k0_pay2 (F := Ideal) v34 v37 v42 v45 v52 v55 (ix2 p d)
      = Spec.clamp2 (v55 (ix2 p d) * Spec.coordWeight (fun j => k0_pay1 (F := Ideal) v34 v37 (ix2 p j))
          (fun j k => v42 (ix2 j k)) (fun k => v45 (ix2 (0 : Fin 1) k)) (fun k => v52 (ix2 k (0 : Fin 1)))) := by
  unfold k0_pay2
  simp only [minimumf_apply, maximumf_apply, broadcast_apply, mulf_apply, addf_apply, truncf_apply, logistic_apply,
    shapeCast_self, Cert.LibKeepdims.broadcastTo_a1_ab_apply, broadcastTo_1b_ab_apply, matmul_col_apply, matmul_sq_apply]
  rfl

theorem out0_13_apply (x0 x1 : Vec Ideal S4000x128 .f32) (x2 : Vec Ideal S4000x1 .f32) (x3 : Vec Ideal S4000x3 .f32)
    (x4 x5 : Vec Ideal S128x128 .f32) (x6 x7 : Vec Ideal S1x128 .f32) (x8 : Vec Ideal S128x128 .f32) (x9 : Vec Ideal S1x128 .f32)
    (x10 : Vec Ideal S128x128 .f32) (x11 : Vec Ideal S1x128 .f32) (x12 : Vec Ideal S128x1 .f32) (p : Fin 4000) (q : Fin 128) :
    out0_13 (F := Ideal) x0 x1 x2 x3 x4 x5 x6 x7 x8 x9 x10 x11 x12 (ix2 p q) = msgRow x0 x1 x2 x4 x5 x6 x7 x8 x9 p q := by
  have hz : (![0, 0] : Fin 2 → Nat) = fun _ => 0 := funext fun a => by fin_cases a <;> rfl
  unfold out0_13
  rw [View.canon_unit_zero hz]
  simp only [View.ld_unit_zero (S := S4000x128) hz, View.ld_unit_zero (S := S128x128) hz,
    View.ld_unit_zero (S := S4000x1) hz, View.ld_unit_zero (S := S1x128) hz]
  rw [pay1_apply, pay3_apply, pay4_apply]
  rfl

theorem out0_14_apply (x0 x1 : Vec Ideal S4000x128 .f32) (x2 : Vec Ideal S4000x1 .f32) (x3 : Vec Ideal S4000x3 .f32)
    (x4 x5 : Vec Ideal S128x128 .f32) (x6 x7 : Vec Ideal S1x128 .f32) (x8 : Vec Ideal S128x128 .f32) (x9 : Vec Ideal S1x128 .f32)
    (x10 : Vec Ideal S128x128 .f32) (x11 : Vec Ideal S1x128 .f32) (x12 : Vec Ideal S128x1 .f32) (p : Fin 4000) (d : Fin 3) :
    out0_14 (F := Ideal) x0 x1 x2 x3 x4 x5 x6 x7 x8 x9 x10 x11 x12 (ix2 p d)
      = Spec.clamp2 (x3 (ix2 p d) * Spec.coordWeight (msgRow x0 x1 x2 x4 x5 x6 x7 x8 x9 p)
          (fun j k => x10 (ix2 j k)) (fun k => x11 (ix2 (0 : Fin 1) k)) (fun k => x12 (ix2 k (0 : Fin 1)))) := by
  have hz : (![0, 0] : Fin 2 → Nat) = fun _ => 0 := funext fun a => by fin_cases a <;> rfl
  unfold out0_14
  rw [View.canon_unit_zero hz]
  simp only [View.ld_unit_zero (S := S4000x128) hz, View.ld_unit_zero (S := S128x128) hz,
    View.ld_unit_zero (S := S4000x1) hz, View.ld_unit_zero (S := S1x128) hz,
    View.ld_unit_zero (S := S128x1) hz, View.ld_unit_zero (S := S4000x3) hz]
  rw [pay2_apply]
  have hm : (fun j => k0_pay1 (F := Ideal) (k0_pay3 x0 x1 x4 x5 x2 x6 x7 x8) (k0_pay4 x9) (ix2 p j))
      = msgRow x0 x1 x2 x4 x5 x6 x7 x8 x9 p := funext fun j => by
    rw [pay1_apply, pay3_apply, pay4_apply]
    rfl
  rw [hm]

end Cert.KernelIdeal.EdgeBody

end
-- ==== Proof.RefEdge.lean ====
/-
  The reference's edge stages read at an entry. Its message at (e, j) is the edge network of row e of the two gathered
  feature arrays and of the squared distance at e: the joined row of length 257 against the first weight matrix splits
  into its three row blocks (rows 0–127, 128–255, and row 256). Its translation at (e, d) is the coordinate difference
  at (e, d) times the coordinate weight of edge e's message, clamped.

  The steps. A sum over 257 terms is the sum of its first 128, its next 128 and its last (`sum_split257`); the joined
  row at a column below 128 is the first gathered row there, at column 128 + l the second gathered row at l, at column
  256 the squared distance (`v36_left`, `v36_mid`, `v36_last`). Each matrix product at (e, k) is the sum over the
  contracted axis of row e against column k, each bias is read at its column, and `x · (1 / (1 + e⁻ˣ))` with the
  constant 1 is `silu x` (`silu_host`). Composed: the hidden layer (`ref_hidden_apply`), the message
  (`ref_msg_apply`), the dense layer of the message and its product with the last column (`v51_dense`, `v52_at`),
  and the clamped product with the coordinate difference (`ref_trans_apply`).
-/
import proofs.«133854_j893353197946_1_alg».proof.Proof.Gen.ReferenceIdeal.Read
import proofs.«133854_j893353197946_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x11 : (⟨S128x128, .f32⟩ : BufTy).Contents (Elt Ideal))
  (x12 : (⟨S128, .f32⟩ : BufTy).Contents (Elt Ideal)) (x13 : (⟨S128x1, .f32⟩ : BufTy).Contents (Elt Ideal))

/-- Edge `e`'s message as a function of the column, from the reference's gathered rows and the arguments. -/
def refMsgRow (e : Fin 800000) : Fin 128 → EReal :=
  Spec.dense (Spec.hidden (fun l => val_main_v28 (F := Ideal) x0 x2 (ix2 e l)) (fun l => val_main_v35 (F := Ideal) x0 x2 (ix2 e l))
      (val_main_v21 (F := Ideal) x1 x2 (ix2 e (0 : Fin 1)))
      (fun l k => x3 (ix2 (⟨l.val, by omega⟩ : Fin 257) k)) (fun l k => x3 (ix2 (⟨128 + l.val, by omega⟩ : Fin 257) k))
      (fun k => x3 (ix2 (⟨256, by omega⟩ : Fin 257) k)) (fun k => x4 (ix1 k)))
    (fun k j => x5 (ix2 k j)) (fun j => x6 (ix1 j))

/-! ### Scalars -/

/-- The pattern of `1.0` denotes the extended real `1`. -/
theorem one_f32 : Ideal.ofBits .f32 0x3F800000#32 = 1 := by
  simp [Ideal.ofBits, Ideal.ieee, -EReal.coe_mul]; norm_num

/-- `x · (1 / (1 + e⁻ˣ))`, with the constant `1` given by its pattern, is `silu x`. -/
theorem silu_host (x : EReal) :
    x * Ideal.div (Ideal.ofBits .f32 0x3F800000#32) (Ideal.ofBits .f32 0x3F800000#32 + Ideal.exp (-x)) = Spec.silu x := by
  rw [one_f32]; rfl

/-! ### Sums and indices -/

/-- A sum over 257 terms is the sum of its first 128, its next 128, and its last. -/
theorem sum_split257 (f : Fin 257 → EReal) :
    ∑ k : Fin 257, f k
      = ((∑ l : Fin 128, f ⟨l.val, by omega⟩) + (∑ l : Fin 128, f ⟨128 + l.val, by omega⟩)) + f ⟨256, by omega⟩ := by
  rw [Fin.sum_univ_castSucc (n := 256)]
  congr 1
  exact Fin.sum_univ_add (a := 128) (b := 128) (fun k => f (Fin.castSucc k))

/-- A rank-2 index with coordinates `a`, `b` is `ix2 a b`. -/
theorem idx2_eq {n0 n1 : Nat} (i : (⟨2, ![n0, n1]⟩ : Shape).Idx) (a : Fin n0) (b : Fin n1) (h0 : i 0 = a) (h1 : i 1 = b) :
    i = ix2 a b := by
  subst h0 h1; exact eq_ix2 i

/-- A rank-1 index with coordinate `a` is `ix1 a`. -/
theorem idx1_eq {n : Nat} (i : (⟨1, ![n]⟩ : Shape).Idx) (a : Fin n) (h0 : i 0 = a) : i = ix1 a := by
  subst h0; exact eq_ix1 i

/-! ### The joined row: three pieces of widths 128, 128, 1 along axis 1 -/

section Join
variable {α : Type}

/-- A column of the first piece: the first piece there. -/
theorem concat3_left (y28 y35 : S800000x128.Idx → α) (y21 : S800000x1.Idx → α)
    (h : Shape.Concatenates [S800000x128, S800000x128, S800000x1] S800000x257 1) (e : Fin 800000) (l : Fin 128) :
    concatenate S800000x257 1 [⟨S800000x128, y28⟩, ⟨S800000x128, y35⟩, ⟨S800000x1, y21⟩] h (ix2 e (⟨l.val, by omega⟩ : Fin 257))
      = y28 (ix2 e l) := by
  refine concatenate_apply_piece (t := S800000x257) (1 : Fin 2) [⟨S800000x128, y28⟩, ⟨S800000x128, y35⟩, ⟨S800000x1, y21⟩] h _ 0
    (by simp) S800000x128 y28 rfl rfl 0 rfl (ix2 e l) (fun b hb => ?_) ?_
  · match b with
    | ⟨0, _⟩ => rfl
    | ⟨1, _⟩ => exact absurd rfl hb
  · exact Nat.zero_add _

/-- A column `128 + l` of the join: the second piece at column `l`. -/
theorem concat3_mid (y28 y35 : S800000x128.Idx → α) (y21 : S800000x1.Idx → α)
    (h : Shape.Concatenates [S800000x128, S800000x128, S800000x1] S800000x257 1) (e : Fin 800000) (l : Fin 128) :
    concatenate S800000x257 1 [⟨S800000x128, y28⟩, ⟨S800000x128, y35⟩, ⟨S800000x1, y21⟩] h (ix2 e (⟨128 + l.val, by omega⟩ : Fin 257))
      = y35 (ix2 e l) := by
  refine concatenate_apply_piece (t := S800000x257) (1 : Fin 2) [⟨S800000x128, y28⟩, ⟨S800000x128, y35⟩, ⟨S800000x1, y21⟩] h _ 1
    (by simp) S800000x128 y35 rfl rfl 128 rfl (ix2 e l) (fun b hb => ?_) ?_
  · match b with
    | ⟨0, _⟩ => rfl
    | ⟨1, _⟩ => exact absurd rfl hb
  · rfl

/-- Column 256 of the join: the third piece at its one column. -/
theorem concat3_last (y28 y35 : S800000x128.Idx → α) (y21 : S800000x1.Idx → α)
    (h : Shape.Concatenates [S800000x128, S800000x128, S800000x1] S800000x257 1) (e : Fin 800000) :
    concatenate S800000x257 1 [⟨S800000x128, y28⟩, ⟨S800000x128, y35⟩, ⟨S800000x1, y21⟩] h (ix2 e (⟨256, by omega⟩ : Fin 257))
      = y21 (ix2 e (0 : Fin 1)) := by
  refine concatenate_apply_piece (t := S800000x257) (1 : Fin 2) [⟨S800000x128, y28⟩, ⟨S800000x128, y35⟩, ⟨S800000x1, y21⟩] h _ 2
    (by simp) S800000x1 y21 rfl rfl 256 rfl (ix2 e (0 : Fin 1)) (fun b hb => ?_) ?_
  · match b with
    | ⟨0, _⟩ => rfl
    | ⟨1, _⟩ => exact absurd rfl hb
  · rfl

end Join

/-- The joined row at a column of its first block is the first gathered row there. -/
theorem v36_left (e : Fin 800000) (l : Fin 128) :
    val_main_v36 (F := Ideal) x0 x1 x2 (ix2 e (⟨l.val, by omega⟩ : Fin 257)) = val_main_v28 (F := Ideal) x0 x2 (ix2 e l) := by
  unfold val_main_v36
  exact concat3_left _ _ _ _ e l

/-- The joined row at a column of its second block is the second gathered row there. -/
theorem v36_mid (e : Fin 800000) (l : Fin 128) :
    val_main_v36 (F := Ideal) x0 x1 x2 (ix2 e (⟨128 + l.val, by omega⟩ : Fin 257)) = val_main_v35 (F := Ideal) x0 x2 (ix2 e l) := by
  unfold val_main_v36
  exact concat3_mid _ _ _ _ e l

/-- The joined row's last column is the squared distance. -/
theorem v36_last (e : Fin 800000) :
    val_main_v36 (F := Ideal) x0 x1 x2 (ix2 e (⟨256, by omega⟩ : Fin 257)) = val_main_v21 (F := Ideal) x1 x2 (ix2 e (0 : Fin 1)) := by
  unfold val_main_v36
  exact concat3_last _ _ _ _ e

/-! ### The first linear map and silu: the hidden layer -/

/-- The first linear map at (e, k): the joined row of edge `e` against column `k` of the weight matrix. -/
theorem v37_at (e : Fin 800000) (k : Fin 128) :
    val_main_v37 (F := Ideal) x0 x1 x2 x3 (ix2 e k)
      = ∑ k' : Fin 257, val_main_v36 (F := Ideal) x0 x1 x2 (ix2 e k') * x3 (ix2 k' k) := by
  rw [val_main_v37_apply]
  refine Finset.sum_congr rfl fun k' _ => ?_
  rw [idx2_eq (lidx_main_v37 (ix2 e k) k') e k' rfl rfl, idx2_eq (ridx_main_v37 (ix2 e k) k') k' k rfl rfl]

/-- The first bias, broadcast along the edges, at (e, k). -/
theorem v39_at (e : Fin 800000) (k : Fin 128) : val_main_v39 (F := Ideal) x4 (ix2 e k) = x4 (ix1 k) := by
  rw [val_main_v39_apply, val_main_v38_apply]
  exact congrArg x4 (idx1_eq _ k rfl)

/-- The first linear map plus bias at (e, k), the sum over the joined axis split into its three row blocks. -/
theorem v40_at (e : Fin 800000) (k : Fin 128) :
    val_main_v40 (F := Ideal) x0 x1 x2 x3 x4 (ix2 e k)
      = (((∑ l : Fin 128, val_main_v28 (F := Ideal) x0 x2 (ix2 e l) * x3 (ix2 (⟨l.val, by omega⟩ : Fin 257) k))
          + (∑ l : Fin 128, val_main_v35 (F := Ideal) x0 x2 (ix2 e l) * x3 (ix2 (⟨128 + l.val, by omega⟩ : Fin 257) k)))
          + val_main_v21 (F := Ideal) x1 x2 (ix2 e (0 : Fin 1)) * x3 (ix2 (⟨256, by omega⟩ : Fin 257) k))
        + x4 (ix1 k) := by
  rw [val_main_v40_apply, v39_at, v37_at, sum_split257]
  simp only [v36_left, v36_mid, v36_last]
  rfl

/-- The hidden layer at an index is silu of the first linear map there: `x · (1 / (1 + e⁻ˣ))` is `silu x`. -/
theorem v41_at (i : S800000x128.Idx) :
    val_main_v41 (F := Ideal) x0 x1 x2 x3 x4 i = Spec.silu (val_main_v40 (F := Ideal) x0 x1 x2 x3 x4 i) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply]
  exact silu_host _

/-- The hidden layer at (e, k) is `Spec.hidden` of edge `e`'s two gathered rows and squared distance. -/
theorem ref_hidden_apply (e : Fin 800000) (k : Fin 128) :
    val_main_v41 (F := Ideal) x0 x1 x2 x3 x4 (ix2 e k)
      = Spec.hidden (fun l => val_main_v28 (F := Ideal) x0 x2 (ix2 e l)) (fun l => val_main_v35 (F := Ideal) x0 x2 (ix2 e l))
          (val_main_v21 (F := Ideal) x1 x2 (ix2 e (0 : Fin 1)))
          (fun l k => x3 (ix2 (⟨l.val, by omega⟩ : Fin 257) k)) (fun l k => x3 (ix2 (⟨128 + l.val, by omega⟩ : Fin 257) k))
          (fun k => x3 (ix2 (⟨256, by omega⟩ : Fin 257) k)) (fun k => x4 (ix1 k)) k := by
  rw [v41_at, v40_at]
  rfl

/-! ### The second linear map and silu: the message -/

/-- The second linear map at (e, j): the hidden row of edge `e` against column `j`. -/
theorem v42_at (e : Fin 800000) (j : Fin 128) :
    val_main_v42 (F := Ideal) x0 x1 x2 x3 x4 x5 (ix2 e j)
      = ∑ k : Fin 128, val_main_v41 (F := Ideal) x0 x1 x2 x3 x4 (ix2 e k) * x5 (ix2 k j) := by
  rw [val_main_v42_apply]
  refine Finset.sum_congr rfl fun k _ => ?_
  rw [idx2_eq (lidx_main_v42 (ix2 e j) k) e k rfl rfl, idx2_eq (ridx_main_v42 (ix2 e j) k) k j rfl rfl]

/-- The second bias, broadcast along the edges, at (e, j). -/
theorem v44_at (e : Fin 800000) (j : Fin 128) : val_main_v44 (F := Ideal) x6 (ix2 e j) = x6 (ix1 j) := by
  rw [val_main_v44_apply, val_main_v43_apply]
  exact congrArg x6 (idx1_eq _ j rfl)

/-- The message at an index is silu of the second linear map there. -/
theorem v46_at (i : S800000x128.Idx) :
    val_main_v46 (F := Ideal) x0 x1 x2 x3 x4 x5 x6 i = Spec.silu (val_main_v45 (F := Ideal) x0 x1 x2 x3 x4 x5 x6 i) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply]
  exact silu_host _

theorem ref_msg_apply (e : Fin 800000) (j : Fin 128) :
    val_main_v46 (F := Ideal) x0 x1 x2 x3 x4 x5 x6 (ix2 e j) = refMsgRow x0 x1 x2 x3 x4 x5 x6 e j := by
  rw [v46_at, val_main_v45_apply, v44_at, v42_at]
  simp only [ref_hidden_apply]
  rfl

/-! ### The coordinate weight and the clamped translation -/

/-- The third linear map at (e, k): edge `e`'s message against column `k`. -/
theorem v47_at (e : Fin 800000) (k : Fin 128) :
    val_main_v47 (F := Ideal) x0 x1 x2 x3 x4 x5 x6 x11 (ix2 e k)
      = ∑ j : Fin 128, refMsgRow x0 x1 x2 x3 x4 x5 x6 e j * x11 (ix2 j k) := by
  rw [val_main_v47_apply]
  refine Finset.sum_congr rfl fun j _ => ?_
  rw [idx2_eq (lidx_main_v47 (ix2 e k) j) e j rfl rfl, idx2_eq (ridx_main_v47 (ix2 e k) j) j k rfl rfl, ref_msg_apply]

/-- The third bias, broadcast along the edges, at (e, k). -/
theorem v49_at (e : Fin 800000) (k : Fin 128) : val_main_v49 (F := Ideal) x12 (ix2 e k) = x12 (ix1 k) := by
  rw [val_main_v49_apply, val_main_v48_apply]
  exact congrArg x12 (idx1_eq _ k rfl)

/-- The third layer at an index is silu of the third linear map there. -/
theorem v51_at (i : S800000x128.Idx) :
    val_main_v51 (F := Ideal) x0 x1 x2 x3 x4 x5 x6 x11 x12 i
      = Spec.silu (val_main_v50 (F := Ideal) x0 x1 x2 x3 x4 x5 x6 x11 x12 i) := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply]
  exact silu_host _

/-- The third linear map and silu at (e, k): a dense layer of edge `e`'s message. -/
theorem v51_dense (e : Fin 800000) (k : Fin 128) :
    val_main_v51 (F := Ideal) x0 x1 x2 x3 x4 x5 x6 x11 x12 (ix2 e k)
      = Spec.dense (refMsgRow x0 x1 x2 x3 x4 x5 x6 e) (fun j k => x11 (ix2 j k)) (fun k => x12 (ix1 k)) k := by
  rw [v51_at, val_main_v50_apply, v49_at, v47_at]
  rfl

/-- The fourth linear map at edge `e`: the coordinate weight of its message. -/
theorem v52_at (e : Fin 800000) :
    val_main_v52 (F := Ideal) x0 x1 x2 x3 x4 x5 x6 x11 x12 x13 (ix2 e (0 : Fin 1))
      = Spec.coordWeight (refMsgRow x0 x1 x2 x3 x4 x5 x6 e) (fun j k => x11 (ix2 j k)) (fun k => x12 (ix1 k))
          (fun k => x13 (ix2 k (0 : Fin 1))) := by
  rw [val_main_v52_apply]
  unfold Spec.coordWeight
  refine Finset.sum_congr rfl fun k _ => ?_
  rw [idx2_eq (lidx_main_v52 (ix2 e (0 : Fin 1)) k) e k rfl rfl,
    idx2_eq (ridx_main_v52 (ix2 e (0 : Fin 1)) k) k (0 : Fin 1) rfl rfl, v51_dense]

theorem ref_trans_apply (e : Fin 800000) (d : Fin 3) :
    val_main_v55 (F := Ideal) x0 x1 x2 x3 x4 x5 x6 x11 x12 x13 (ix2 e d)
      = Spec.clamp2 (val_main_v18 (F := Ideal) x1 x2 (ix2 e d) * Spec.coordWeight (refMsgRow x0 x1 x2 x3 x4 x5 x6 e)
          (fun j k => x11 (ix2 j k)) (fun k => x12 (ix1 k)) (fun k => x13 (ix2 k (0 : Fin 1)))) := by
  rw [val_main_v55_apply, val_main_call3_v4_apply, val_main_call3_v3_apply, val_main_cst_8_apply,
    val_main_call3_v2_apply, val_main_call3_v1_apply, val_main_call3_v0_apply, val_main_cst_7_apply,
    val_main_v54_apply, val_main_v53_apply, idx2_eq (idx_main_v53 (ix2 e d)) e (0 : Fin 1) rfl rfl, v52_at]
  rfl

end Cert.ReferenceIdeal.RefValue

end
-- ==== Proof.EdgeArr.lean ====
/-
  The edge kernel's two output arrays are the reference's message and translation stages.

  Point t of the grid writes back, as rows 4000·t … 4000·t + 3999 of the message array, the edge network of the same
  rows of the gathered inputs; those inputs are the reference's own stages, and the weight and bias windows are the
  arguments' row blocks, so entry (p, q) of the block is the reference's message at (4000·t + p, q). The blocks tile the
  array, hence the array after the region is the reference's message stage; the translations go the same way.
-/
import proofs.«133854_j893353197946_1_alg».proof.Proof.Blocks0
import proofs.«133854_j893353197946_1_alg».proof.Proof.HostIn
import proofs.«133854_j893353197946_1_alg».proof.Proof.HostRef
import proofs.«133854_j893353197946_1_alg».proof.Proof.EdgeBody
import proofs.«133854_j893353197946_1_alg».proof.Proof.RefEdge

set_option maxRecDepth 16384

noncomputable section

namespace Cert.KernelIdeal.EdgeArr

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Row p of point t's message block is the reference's message row of edge 4000·t + p: the gathered rows, the squared
    distance, the weight row blocks and the bias rows are read through their windows and the host operations. -/
theorem msgRow_eq (c : Dev nD) (t : Fin cfg0.N) (p : Fin 4000) :
    EdgeBody.msgRow (iblk0 (V1 m ρ) c 0 t) (iblk0 (V1 m ρ) c 1 t) (iblk0 (V1 m ρ) c 2 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) p
      = Cert.ReferenceIdeal.RefValue.refMsgRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Blocks0.erow t p) := by
  unfold EdgeBody.msgRow Cert.ReferenceIdeal.RefValue.refMsgRow
  simp only [Blocks0.iblk0_apply (V1 m ρ) c t, Blocks0.iblk1_apply (V1 m ρ) c t, Blocks0.iblk2_apply (V1 m ρ) c t, Blocks0.iblk4_apply (V1 m ρ) c t, Blocks0.iblk5_apply (V1 m ρ) c t,
    Blocks0.iblk6_apply (V1 m ρ) c t, Blocks0.iblk7_apply (V1 m ρ) c t, Blocks0.iblk8_apply (V1 m ρ) c t, Blocks0.iblk9_apply (V1 m ρ) c t]
  rw [HostRef.V1_v10 m ρ c, HostRef.V1_v17 m ρ c, HostRef.V1_v35 m ρ c, HostIn.V1_arg5 m ρ c]
  simp only [HostIn.V1_v36_apply m ρ c, HostIn.V1_v37_apply m ρ c, HostIn.V1_v38_apply m ρ c, HostIn.V1_v39_apply m ρ c, HostIn.V1_v40_apply m ρ c]

/-- What point t writes back of the messages is block t of the reference's message stage. -/
theorem flushed13 (c : Dev nD) (t : Fin cfg0.N) :
    (dat0 (V1 m ρ) c).flushed 13 t
      = ((cfg0.win 13).blk t).view.read (Elt Ideal) (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 13).cut (grid0.coords t) ((dat0 (V1 m ρ) c).after 13 t) = _
  rw [after0_13]
  funext y
  obtain ⟨p, q, rfl⟩ : ∃ (p : Fin 4000) (q : Fin 128), y = ix2 p q := ⟨y 0, y 1, eq_ix2 y⟩
  show out0_13 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (ix2 p q)
      = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 13).blk t).view.emb (ix2 p q))
  rw [Blocks0.emb13]
  refine (EdgeBody.out0_13_apply (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) p q).trans ?_
  rw [Cert.ReferenceIdeal.RefValue.ref_msg_apply]
  exact congrFun (msgRow_eq m ρ c t p) q

/-- The message array after the edge region is the reference's message stage. -/
theorem edge_msg (c : Dev nD) :
    (dat0 (V1 m ρ) c).arrAt 13 cfg0.N = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dat0 (V1 m ρ) c).arrAt_eq_of_cover 13 _ (fun t _ => flushed13 m ρ c t) Blocks0.cover13

/-- What point t writes back of the translations is block t of the reference's translation stage. -/
theorem flushed14 (c : Dev nD) (t : Fin cfg0.N) :
    (dat0 (V1 m ρ) c).flushed 14 t
      = ((cfg0.win 14).blk t).view.read (Elt Ideal) (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13))) := by
  show (cfg0.win 14).cut (grid0.coords t) ((dat0 (V1 m ρ) c).after 14 t) = _
  rw [after0_14]
  funext y
  obtain ⟨p, d, rfl⟩ : ∃ (p : Fin 4000) (d : Fin 3), y = ix2 p d := ⟨y 0, y 1, eq_ix2 y⟩
  show out0_14 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (ix2 p d)
      = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (((cfg0.win 14).blk t).view.emb (ix2 p d))
  rw [Blocks0.emb14]
  refine (EdgeBody.out0_14_apply (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) p d).trans ?_
  rw [Cert.ReferenceIdeal.RefValue.ref_trans_apply, msgRow_eq m ρ c t p]
  simp only [Blocks0.iblk3_apply (V1 m ρ) c t, Blocks0.iblk10_apply (V1 m ρ) c t, Blocks0.iblk11_apply (V1 m ρ) c t, Blocks0.iblk12_apply (V1 m ρ) c t]
  rw [HostRef.V1_v32 m ρ c, HostIn.V1_arg11 m ρ c, HostIn.V1_arg13 m ρ c]
  simp only [HostIn.V1_v41_apply m ρ c]

/-- The translation array after the edge region is the reference's translation stage. -/
theorem edge_trans (c : Dev nD) :
    (dat0 (V1 m ρ) c).arrAt 14 cfg0.N = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) :=
  (dat0 (V1 m ρ) c).arrAt_eq_of_cover 14 _ (fun t _ => flushed14 m ρ c t) Blocks0.cover14

end Cert.KernelIdeal.EdgeArr

end
-- ==== Proof.HostMid.lean ====
/-
  Between the two kernel regions the program scatters the edge outputs by each edge's first endpoint, exactly as the
  reference does with its own message and translation stages. Since the kernel's two arrays ARE those stages, the
  summed messages the node kernel reads are the reference's summed messages, and the new coordinates are the reference's
  new coordinates. The node kernel's weight windows are the two row blocks of the node weight matrix; its bias rows the
  bias vectors as one row.
-/
import proofs.«133854_j893353197946_1_alg».proof.Proof.EdgeArr

set_option maxRecDepth 16384

noncomputable section

namespace Cert.KernelIdeal.HostMid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## After the edge region: its two outputs are the reference's stages, everything else as before -/

theorem W2_msg (c : Dev nD) :
    W2 m ρ c (Proc.devRef .tc main_v42_0) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 13).trans (EdgeArr.edge_msg m ρ c)

theorem W2_trans (c : Dev nD) :
    W2 m ρ c (Proc.devRef .tc main_v42_1) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) :=
  (W2_arr m ρ c 14).trans (EdgeArr.edge_trans m ρ c)

theorem W2_v1 (c : Dev nD) : W2 m ρ c (Proc.devRef .tc main_v1) = Cert.ReferenceIdeal.Read.val_main_v1 (F := Ideal) (m ((c : Thread nD τ).loc main_arg2)) :=
  (W2_of_ne m ρ c main_v1 (by decide)).trans (HostRef.W1_v1 m ρ c)

theorem W2_arg0 (c : Dev nD) : W2 m ρ c (Proc.devRef .tc main_arg0) = m ((c : Thread nD τ).loc main_arg0) :=
  (W2_of_ne m ρ c main_arg0 (by decide)).trans (HostIn.W1_arg0 m ρ c)

theorem W2_arg1 (c : Dev nD) : W2 m ρ c (Proc.devRef .tc main_arg1) = m ((c : Thread nD τ).loc main_arg1) :=
  (W2_of_ne m ρ c main_arg1 (by decide)).trans (HostIn.W1_arg1 m ρ c)

theorem W2_arg7 (c : Dev nD) : W2 m ρ c (Proc.devRef .tc main_arg7) = m ((c : Thread nD τ).loc main_arg7) :=
  (W2_of_ne m ρ c main_arg7 (by decide)).trans (HostIn.W1_arg7 m ρ c)

theorem W2_arg8 (c : Dev nD) : W2 m ρ c (Proc.devRef .tc main_arg8) = m ((c : Thread nD τ).loc main_arg8) :=
  (W2_of_ne m ρ c main_arg8 (by decide)).trans (HostIn.W1_arg8 m ρ c)

theorem W2_arg9 (c : Dev nD) : W2 m ρ c (Proc.devRef .tc main_arg9) = m ((c : Thread nD τ).loc main_arg9) :=
  (W2_of_ne m ρ c main_arg9 (by decide)).trans (HostIn.W1_arg9 m ρ c)

theorem W2_arg10 (c : Dev nD) : W2 m ρ c (Proc.devRef .tc main_arg10) = m ((c : Thread nD τ).loc main_arg10) :=
  (W2_of_ne m ρ c main_arg10 (by decide)).trans (HostIn.W1_arg10 m ρ c)

/-! ## What the node region finds in its windows' arrays -/

theorem V3_arg0 (c : Dev nD) : V3 m ρ c main_arg0 = m ((c : Thread nD τ).loc main_arg0) := by
  show StableHlo.after hostOps1 (W2 m ρ c) (Proc.devRef .tc main_arg0) = _
  after_results_simp
  exact W2_arg0 m ρ c

theorem V3_arg9 (c : Dev nD) : V3 m ρ c main_arg9 = m ((c : Thread nD τ).loc main_arg9) := by
  show StableHlo.after hostOps1 (W2 m ρ c) (Proc.devRef .tc main_arg9) = _
  after_results_simp
  exact W2_arg9 m ρ c

/-- The summed messages: the scatter-add of the kernel's message array by first endpoint is the reference's. -/
theorem V3_v57 (c : Dev nD) :
    V3 m ρ c main_v57 = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v57) = _
  after_results_simp
  rw [W2_v1 m ρ c, W2_msg m ρ c]
  rfl

theorem V3_v58_apply (c : Dev nD) (l k : Fin 128) :
    V3 m ρ c main_v58 (ix2 l k) = m ((c : Thread nD τ).loc main_arg7) (ix2 (⟨l.val, by omega⟩ : Fin 256) k) := by
  show StableHlo.after hostOps1 (W2 m ρ c) (Proc.devRef .tc main_v58) (ix2 l k) = _
  after_results_simp
  rw [W2_arg7 m ρ c]
  exact slice2_axis0_apply 0 _ _ l k ⟨l.val, by omega⟩ (Nat.zero_add _).symm

theorem V3_v59_apply (c : Dev nD) (l k : Fin 128) :
    V3 m ρ c main_v59 (ix2 l k) = m ((c : Thread nD τ).loc main_arg7) (ix2 (⟨128 + l.val, by omega⟩ : Fin 256) k) := by
  show StableHlo.after hostOps1 (W2 m ρ c) (Proc.devRef .tc main_v59) (ix2 l k) = _
  after_results_simp
  rw [W2_arg7 m ρ c]
  exact slice2_axis0_apply 128 _ _ l k ⟨128 + l.val, by omega⟩ rfl

theorem V3_v60_apply (c : Dev nD) (k : Fin 128) :
    V3 m ρ c main_v60 (ix2 (0 : Fin 1) k) = m ((c : Thread nD τ).loc main_arg8) (ix1 k) := by
  show StableHlo.after hostOps1 (W2 m ρ c) (Proc.devRef .tc main_v60) (ix2 (0 : Fin 1) k) = _
  after_results_simp
  rw [W2_arg8 m ρ c]
  exact shapeCast_a_1a_apply _ _ (0 : Fin 1) k

theorem V3_v61_apply (c : Dev nD) (k : Fin 128) :
    V3 m ρ c main_v61 (ix2 (0 : Fin 1) k) = m ((c : Thread nD τ).loc main_arg10) (ix1 k) := by
  show StableHlo.after hostOps1 (W2 m ρ c) (Proc.devRef .tc main_v61) (ix2 (0 : Fin 1) k) = _
  after_results_simp
  rw [W2_arg10 m ρ c]
  exact shapeCast_a_1a_apply _ _ (0 : Fin 1) k

/-! ## The new coordinates -/

/-- The coordinate result at the end of the run: the node region does not touch it, and the host operations that
    make it — the scattered translations over the clamped in-degree, added to the coordinates — are the reference's,
    applied to the reference's translation stage. -/
theorem xout (c : Dev nD) :
    W4 m ρ c (Proc.devRef .tc main_v54) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  rw [W4_of_ne m ρ c main_v54 (by decide)]
  show StableHlo.after hostOps1 (W2 m ρ c) (Proc.devRef .tc main_v54) = _
  after_results_simp
  rw [W2_v1 m ρ c, W2_trans m ρ c, W2_arg1 m ρ c]
  rfl

end Cert.KernelIdeal.HostMid

end
-- ==== Proof.NodeBody.lean ====
/-
  The node kernel's store read at an entry: the output block at (p, q) is the node update of row p of the feature block
  and of the summed-message block.

  The kernel's arithmetic on a block of 2000 rows: h·wa + ag·wb (two products into a zero block, added), plus the bias
  row b1, through silu (v times the logistic function of v), times w2, plus the bias row b2, plus h itself.  On the
  extended reals a product into the zero block read at (p, q) is Σₖ a(p, k) · b(k, q): the contraction has one axis, and
  the operands' indices at a contraction position k are (p, k) and (k, q).  The one store covers the whole block at zero
  offsets, so the block it leaves is its payload, and the loads through the whole-block rectangle read the inputs.
-/
import proofs.«133854_j893353197946_1_alg».proof.Proof.Gen.KernelIdeal.Frame
import proofs.«133854_j893353197946_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeBody

open Idealize.ShloMosaic Idealize.ShloMosaic.ValueIdx Cert.KernelIdeal Cert.KernelIdeal.Gen

/-- Row axis of the left operand: the output's row. -/
theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- Column axis of the left operand: the contraction position. -/
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- Row axis of the right operand: the contraction position. -/
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- Column axis of the right operand: the output's column. -/
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero block, read at (p, q): row p of the left operand against column q of the right. -/
theorem matmul_row (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The logistic function of a block, read at an entry. -/
theorem logistic_apply (v : FVec Ideal S2000x128 .f32) (i : S2000x128.Idx) : logistic v i = Ideal.logistic (v i) := rfl

/-- The payload at (p, q): the node update of row p. Every format change is the identity on the extended reals, each
    product into the zero block is a plain sum over the contraction position, the bias rows are read at their one row,
    and what remains is the node update's own expression. -/
theorem pay1_apply (x0 x1 : Vec Ideal S2000x128 .f32) (x2 x3 : Vec Ideal S128x128 .f32) (x4 : Vec Ideal S1x128 .f32)
    (x5 : Vec Ideal S128x128 .f32) (x6 : Vec Ideal S1x128 .f32) (p : Fin 2000) (q : Fin 128) :
    k1_pay1 (F := Ideal) x0 x1 x2 x3 x4 x5 x6 (ix2 p q)
      = Spec.nodeOut (fun l => x0 (ix2 p l)) (fun l => x1 (ix2 p l)) (fun l k => x2 (ix2 l k)) (fun l k => x3 (ix2 l k))
          (fun k => x4 (ix2 (0 : Fin 1) k)) (fun k j => x5 (ix2 k j)) (fun j => x6 (ix2 (0 : Fin 1) j)) q := by
  unfold k1_pay1
  simp only [shapeCast_self, addf_apply, mulf_apply, logistic_apply, matmul_row, truncf_apply, broadcastTo_1b_ab_apply]
  rfl

theorem out1_7_apply (x0 x1 : Vec Ideal S2000x128 .f32) (x2 x3 : Vec Ideal S128x128 .f32) (x4 : Vec Ideal S1x128 .f32)
    (x5 : Vec Ideal S128x128 .f32) (x6 : Vec Ideal S1x128 .f32) (p : Fin 2000) (q : Fin 128) :
    out1_7 (F := Ideal) x0 x1 x2 x3 x4 x5 x6 (ix2 p q)
      = Spec.nodeOut (fun l => x0 (ix2 p l)) (fun l => x1 (ix2 p l)) (fun l k => x2 (ix2 l k)) (fun l k => x3 (ix2 l k))
          (fun k => x4 (ix2 (0 : Fin 1) k)) (fun k j => x5 (ix2 k j)) (fun j => x6 (ix2 (0 : Fin 1) j)) q := by
  have hz : (![0, 0] : Fin 2 → Nat) = fun _ => 0 := funext fun a => by fin_cases a <;> rfl
  unfold out1_7
  rw [View.canon_unit_zero hz]
  simp only [View.ld_unit_zero (S := S2000x128) hz, View.ld_unit_zero (S := S128x128) hz, View.ld_unit_zero (S := S1x128) hz]
  exact pay1_apply x0 x1 x2 x3 x4 x5 x6 p q

end Cert.KernelIdeal.NodeBody

end
-- ==== Proof.RefNode.lean ====
/-
  The reference's node stage read at an entry: the new feature at (n, j) is the node update of row n of the features and
  of the summed messages.  The joined row of length 256 (features, then summed messages) against the first node weight
  matrix splits into its two row blocks: a sum over 256 terms is the sum over the first 128 plus the sum over the last
  128, and the joined row is the feature row on the first block and the summed-message row on the second.  The
  activation x · (1 / (1 + e⁻ˣ)) is silu, the constant of bit pattern 0x3F800000 being the number one.  The second
  layer, its bias and the residual sum then read off entry by entry.
-/
import proofs.«133854_j893353197946_1_alg».proof.Proof.Gen.ReferenceIdeal.Read
import proofs.«133854_j893353197946_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefNodeValue

open Idealize.ShloMosaic Idealize.ShloMosaic.ValueIdx Cert.ReferenceIdeal Cert.ReferenceIdeal.Read

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal))

/-- The bit pattern 0x3F800000 is the number one. -/
theorem one_f32 : Ideal.ofBits .f32 0x3F800000#32 = 1 := by
  simp [Ideal.ofBits, Ideal.ieee, -EReal.coe_mul]; norm_num

/-- `x · (1 / (1 + e⁻ˣ))` is `silu x`. -/
theorem silu_host (x : EReal) :
    x * Ideal.div (Ideal.ofBits .f32 0x3F800000#32) (Ideal.ofBits .f32 0x3F800000#32 + Ideal.exp (-x)) = Spec.silu x := by
  rw [one_f32]; rfl

/-- A sum over 256 terms is the sum over the first 128 plus the sum over the last 128. -/
theorem sum_split (f : Fin 256 → EReal) :
    ∑ k : Fin 256, f k
      = (∑ l : Fin 128, f ⟨l.val, by omega⟩) + (∑ l : Fin 128, f ⟨128 + l.val, by omega⟩) :=
  Fin.sum_univ_add (a := 128) (b := 128) f

/-- The joined row at a column of the first block is the feature row there. -/
theorem cat_left (n : Fin 50000) (l : Fin 128) :
    val_main_v71 (F := Ideal) x0 x1 x2 x3 x4 x5 x6 (ix2 n (⟨l.val, by omega⟩ : Fin 256)) = x0 (ix2 n l) := by
  unfold val_main_v71
  exact concatenate_pair_apply_left (t := S50000x256) (s₁ := S50000x128) (s₂ := S50000x128) 1 x0 _ _
    (ix2 n (⟨l.val, by omega⟩ : Fin 256)) rfl (ix2 n l)
    (fun b => match b with | ⟨0, _⟩ => rfl | ⟨1, _⟩ => rfl)

/-- The joined row at a column of the second block is the summed-message row there. -/
theorem cat_right (n : Fin 50000) (l : Fin 128) :
    val_main_v71 (F := Ideal) x0 x1 x2 x3 x4 x5 x6 (ix2 n (⟨128 + l.val, by omega⟩ : Fin 256))
      = val_main_v70 (F := Ideal) x0 x1 x2 x3 x4 x5 x6 (ix2 n l) := by
  unfold val_main_v71
  exact concatenate_pair_apply_right (t := S50000x256) (s₁ := S50000x128) (s₂ := S50000x128) 1 x0 _ _
    (ix2 n (⟨128 + l.val, by omega⟩ : Fin 256)) rfl rfl (ix2 n l)
    (fun b => match b with | ⟨0, _⟩ => fun _ => rfl | ⟨1, _⟩ => fun h => absurd rfl h)
    (by show l.val + 128 = 128 + l.val; omega)

/-- The first dense layer before its activation, at (n, k): the feature row against rows 0–127 of the weight matrix,
    the summed-message row against rows 128–255, plus the bias. -/
theorem v75_at (n : Fin 50000) (k : Fin 128) :
    val_main_v75 (F := Ideal) x0 x1 x2 x3 x4 x5 x6 x7 x8 (ix2 n k)
      = ((∑ l : Fin 128, x0 (ix2 n l) * x7 (ix2 (⟨l.val, by omega⟩ : Fin 256) k))
          + (∑ l : Fin 128, val_main_v70 (F := Ideal) x0 x1 x2 x3 x4 x5 x6 (ix2 n l)
              * x7 (ix2 (⟨128 + l.val, by omega⟩ : Fin 256) k)))
        + x8 (ix1 k) := by
  have el : ∀ c : Fin 256, lidx_main_v72 (ix2 n k) c = ix2 n c :=
    fun c => funext fun a => match a with | ⟨0, _⟩ => rfl | ⟨1, _⟩ => rfl
  have er : ∀ c : Fin 256, ridx_main_v72 (ix2 n k) c = ix2 c k :=
    fun c => funext fun a => match a with | ⟨0, _⟩ => rfl | ⟨1, _⟩ => rfl
  have eb : idx_main_v73 (idx_main_v74 (ix2 n k)) = ix1 k :=
    funext fun a => match a with | ⟨0, _⟩ => rfl
  rw [val_main_v75_apply, val_main_v72_apply, val_main_v74_apply, val_main_v73_apply, Ideal.addf_def, sum_split, eb]
  simp only [el, er, cat_left, cat_right]

/-- The activated first layer at (n, k) is silu of the layer before activation. -/
theorem v76_at (n : Fin 50000) (k : Fin 128) :
    val_main_v76 (F := Ideal) x0 x1 x2 x3 x4 x5 x6 x7 x8 (ix2 n k)
      = Spec.silu (val_main_v75 (F := Ideal) x0 x1 x2 x3 x4 x5 x6 x7 x8 (ix2 n k)) := by
  rw [val_main_v76_apply, val_main_call4_v5_apply, val_main_call4_v4_apply, val_main_call4_cst_0_apply,
    val_main_call4_v3_apply, val_main_call4_v2_apply, val_main_call4_cst_apply, val_main_call4_v1_apply,
    val_main_call4_v0_apply]
  exact silu_host _

theorem ref_node_apply (n : Fin 50000) (j : Fin 128) :
    val_main_v81 (F := Ideal) x0 x1 x2 x3 x4 x5 x6 x7 x8 x9 x10 (ix2 n j)
      = Spec.nodeOut (fun l => x0 (ix2 n l)) (fun l => val_main_v70 (F := Ideal) x0 x1 x2 x3 x4 x5 x6 (ix2 n l))
          (fun l k => x7 (ix2 (⟨l.val, by omega⟩ : Fin 256) k)) (fun l k => x7 (ix2 (⟨128 + l.val, by omega⟩ : Fin 256) k))
          (fun k => x8 (ix1 k)) (fun k j => x9 (ix2 k j)) (fun j => x10 (ix1 j)) j := by
  have el : ∀ k : Fin 128, lidx_main_v77 (ix2 n j) k = ix2 n k :=
    fun k => funext fun a => match a with | ⟨0, _⟩ => rfl | ⟨1, _⟩ => rfl
  have er : ∀ k : Fin 128, ridx_main_v77 (ix2 n j) k = ix2 k j :=
    fun k => funext fun a => match a with | ⟨0, _⟩ => rfl | ⟨1, _⟩ => rfl
  have eb : idx_main_v78 (idx_main_v79 (ix2 n j)) = ix1 j :=
    funext fun a => match a with | ⟨0, _⟩ => rfl
  rw [val_main_v81_apply, val_main_v80_apply, val_main_v77_apply, val_main_v79_apply, val_main_v78_apply, eb]
  simp only [el, er, v76_at, v75_at, Ideal.addf_def]
  rfl

end Cert.ReferenceIdeal.RefNodeValue

end
-- ==== Proof.NodeArr.lean ====
/-
  The node kernel's output array is the reference's new feature stage.

  Point t of the grid writes back, as rows 2000·t … 2000·t + 1999 of the output, the node update of the same rows of the
  features and of the summed messages; the summed messages are the reference's, the weight windows are the two row blocks
  of the node weight matrix, so entry (p, q) of the block is the reference's new feature at (2000·t + p, q). The blocks
  tile the array.
-/
import proofs.«133854_j893353197946_1_alg».proof.Proof.Blocks1
import proofs.«133854_j893353197946_1_alg».proof.Proof.HostMid
import proofs.«133854_j893353197946_1_alg».proof.Proof.NodeBody
import proofs.«133854_j893353197946_1_alg».proof.Proof.RefNode

set_option maxRecDepth 16384

noncomputable section

namespace Cert.KernelIdeal.NodeArr

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- What point t writes back is block t of the reference's new feature stage. -/
theorem flushed7 (c : Dev nD) (t : Fin cfg1.N) :
    (dat1 (V3 m ρ) c).flushed 7 t
      = ((cfg1.win 7).blk t).view.read (Elt Ideal) (Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg1.win 7).cut (grid1.coords t) ((dat1 (V3 m ρ) c).after 7 t) = _
  rw [after1_7]
  funext y
  obtain ⟨p, q, rfl⟩ : ∃ (p : Fin 2000) (q : Fin 128), y = ix2 p q := ⟨y 0, y 1, eq_ix2 y⟩
  show out1_7 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (ix2 p q)
      = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg1.win 7).blk t).view.emb (ix2 p q))
  rw [Blocks1.emb7]
  refine (NodeBody.out1_7_apply (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) p q).trans ?_
  rw [Cert.ReferenceIdeal.RefNodeValue.ref_node_apply]
  simp only [Blocks1.iblk0_apply (V3 m ρ) c t, Blocks1.iblk1_apply (V3 m ρ) c t, Blocks1.iblk2_apply (V3 m ρ) c t, Blocks1.iblk3_apply (V3 m ρ) c t, Blocks1.iblk4_apply (V3 m ρ) c t,
    Blocks1.iblk5_apply (V3 m ρ) c t, Blocks1.iblk6_apply (V3 m ρ) c t]
  rw [HostMid.V3_arg0 m ρ c, HostMid.V3_v57 m ρ c, HostMid.V3_arg9 m ρ c]
  simp only [HostMid.V3_v58_apply m ρ c, HostMid.V3_v59_apply m ρ c, HostMid.V3_v60_apply m ρ c, HostMid.V3_v61_apply m ρ c]

/-- The output array after the node region is the reference's new feature stage. -/
theorem node_out (c : Dev nD) :
    (dat1 (V3 m ρ) c).arrAt 7 cfg1.N = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dat1 (V3 m ρ) c).arrAt_eq_of_cover 7 _ (fun t _ => flushed7 m ρ c t) Blocks1.cover7

/-- The feature result at the end of the run. -/
theorem hout (c : Dev nD) :
    W4 m ρ c (Proc.devRef .tc main_v62) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 7).trans (node_out m ρ c)

end Cert.KernelIdeal.NodeArr

end
-- ==== Proof.lean ====
/-
  One layer of an equivariant graph network: for every edge (i, j), a two-layer network of the joined row
  (h_i, h_j, |x_i − x_j|²) gives a message; a second small network of the message gives a scalar weight, and the edge's
  translation is (x_i − x_j) times that weight, clamped to [−2, 2]; each node's coordinates move by the mean of its
  translations and its features by a two-layer network of (h_i, Σ_j messages), added to h_i.

  The kernel computes the edge network in one tiled region and the node network in another, with the gathers and the
  scatter-adds between them on the host, as the reference has them. The only difference in the arithmetic is that the
  kernel multiplies the three row blocks of the joined row's weight matrix separately, hr·W[0:128] + hc·W[128:256] +
  rad·W[256], where the reference multiplies the joined row by W; on the extended reals a finite sum may be regrouped
  freely, so the two agree at every value, finite or not, and the precondition is never opened. The logistic function
  inside silu is one function on both sides, written 1 / (1 + e⁻ˣ) by the reference.

  The proof: each kernel store read at an entry is the spec's row function of the block's rows (EdgeBody, NodeBody);
  each reference stage read at an entry is the same row function of its operands' rows (RefEdge, RefNode); the blocks
  tile the output arrays (Blocks0, Blocks1), the host operations around the regions are the reference's applied to equal
  arrays (HostIn, HostRef, HostMid), so the arrays after each region are the reference's stages (EdgeArr, NodeArr).
-/
import proofs.«133854_j893353197946_1_alg».proof.Defs
import proofs.«133854_j893353197946_1_alg».proof.Proof.Gen.Kernel
import proofs.«133854_j893353197946_1_alg».proof.Proof.Gen.Kernel.Frame
import proofs.«133854_j893353197946_1_alg».proof.Proof.Gen.KernelIdeal
import proofs.«133854_j893353197946_1_alg».proof.Proof.Gen.KernelIdeal.Frame
import proofs.«133854_j893353197946_1_alg».proof.Proof.Gen.ReferenceIdeal
import proofs.«133854_j893353197946_1_alg».proof.Proof.Gen.ReferenceIdeal.Run
import proofs.«133854_j893353197946_1_alg».proof.Proof.Gen.ReferenceIdeal.Read
import proofs.«133854_j893353197946_1_alg».proof.Proof.Gen.Pre_finite_inputs
import proofs.«133854_j893353197946_1_alg».proof.Proof.KernelRun
import proofs.«133854_j893353197946_1_alg».proof.Proof.NodeArr
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the new features and the new coordinates at the reference's two last stages of the
    (agreeing) arguments. -/
theorem algebraic : Cert.algebraic_KernelIdeal_ReferenceIdeal := by
  intro m ρ m' ρ' _ hagree
  refine ⟨fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.NodeArr.hout m ρ c),
        (h c).2.1.trans (Cert.KernelIdeal.HostMid.xout m ρ c), (h c).2.2⟩)
      (Cert.KernelIdeal.Gen.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13⟩ := hagree c
      rw [Cert.ReferenceIdeal.Read.val_main_v81_eq, h0, h1, h2, h3, h4, h5, h6, h7, h8, h9, h10]
    · obtain ⟨h0, h1, h2, h3, h4, h5, h6, h7, h8, h9, h10, h11, h12, h13⟩ := hagree c
      rw [Cert.ReferenceIdeal.Read.val_main_v67_eq, h0, h1, h2, h3, h4, h5, h6, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
